-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S18000x128 : Shape := ⟨2, ![18000, 128]⟩

abbrev nBuf : Space → Nat
  | .hbm => 5
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x128, .f32⟩
  | .hbm, ⟨4, _⟩ => ⟨S100000x128, .f32⟩
  | .local _ .vmem, ⟨0, _⟩ => ⟨S18000x128, .f32⟩
  | .local _ .vmem, ⟨1, _⟩ => ⟨S18000x128, .f32⟩
  | .local _ .vmem, ⟨2, _⟩ => ⟨S18000x128, .f32⟩
  | .local _ .vmem, ⟨3, _⟩ => ⟨S18000x128, .f32⟩
  | .local _ .vmem, ⟨4, _⟩ => ⟨S128x128, .f32⟩
  | .local _ .vmem, ⟨5, _⟩ => ⟨S128x128, .f32⟩
  | .local _ .vmem, ⟨6, _⟩ => ⟨S18000x128, .f32⟩
  | .local _ .vmem, ⟨7, _⟩ => ⟨S18000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c5_i32 : BitVec 32 := 5#32
  let v0 : BitVec 32 := Scalar.subi c5_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c5_i32 : BitVec 32 := 5#32
  let v0 : BitVec 32 := Scalar.subi c5_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c5_i32 : BitVec 32 := 5#32
  let v0 : BitVec 32 := Scalar.subi c5_i32 arg0
  let c0_i32 : BitVec 32 := 0#32
  let c0_i32_0 : BitVec 32 := 0#32
  ![v0.toNat, c0_i32.toNat]

abbrev stage0_0 : Fin 2 → Memref sig .tc .vmem S18000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S18000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S18000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S18000x128_S18000x128_0_0 : ∀ a, (![0, 0] : Fin 2 → Nat) a + S18000x128.size a ≤ S18000x128.size a
  h_S18000x128 : 0 < S18000x128.numel
  inb_S128x128_S128x128_0_0 : ∀ a, (![0, 0] : Fin 2 → Nat) a + S128x128.size a ≤ S128x128.size a
  h_S128x128 : 0 < S128x128.numel
  dot_S18000x128_S128x128_S18000x128_1_0_0_1_n_n_wf : DotDims.WF S18000x128 S128x128 S18000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S18000x128.size a < S100000x128.size a
  hwx0_0 : ∀ i : grid0.Coords, EltTy.bits .f32 = 32 ∨ (Rect.unit (s := S100000x128) (fun a => cc0_transform_0 i a * S18000x128.size a) (fun a => (Pipeline.Clip.of (cc0_transform_0 i a) (S18000x128.size a) (S100000x128.size a)).extent (S18000x128.size a)) fun a => Pipeline.Clip.inb (Pipeline.Clip.ok_of (hstart0_0 i a))).WholeWords (EltTy.packing .f32)
  hwxs0_0 : ∀ i : grid0.Coords, EltTy.bits .f32 = 32 ∨ (Rect.unit (s := S18000x128) (fun _ => 0) (fun a => (Pipeline.Clip.of (cc0_transform_0 i a) (S18000x128.size a) (S100000x128.size a)).extent (S18000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S18000x128.size a < S100000x128.size a
  hwx0_1 : ∀ i : grid0.Coords, EltTy.bits .f32 = 32 ∨ (Rect.unit (s := S100000x128) (fun a => cc0_transform_1 i a * S18000x128.size a) (fun a => (Pipeline.Clip.of (cc0_transform_1 i a) (S18000x128.size a) (S100000x128.size a)).extent (S18000x128.size a)) fun a => Pipeline.Clip.inb (Pipeline.Clip.ok_of (hstart0_1 i a))).WholeWords (EltTy.packing .f32)
  hwxs0_1 : ∀ i : grid0.Coords, EltTy.bits .f32 = 32 ∨ (Rect.unit (s := S18000x128) (fun _ => 0) (fun a => (Pipeline.Clip.of (cc0_transform_1 i a) (S18000x128.size a) (S100000x128.size a)).extent (S18000x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S18000x128.size a < S100000x128.size a
  hwx0_4 : ∀ i : grid0.Coords, EltTy.bits .f32 = 32 ∨ (Rect.unit (s := S100000x128) (fun a => cc0_transform_4 i a * S18000x128.size a) (fun a => (Pipeline.Clip.of (cc0_transform_4 i a) (S18000x128.size a) (S100000x128.size a)).extent (S18000x128.size a)) fun a => Pipeline.Clip.inb (Pipeline.Clip.ok_of (hstart0_4 i a))).WholeWords (EltTy.packing .f32)
  hwxs0_4 : ∀ i : grid0.Coords, EltTy.bits .f32 = 32 ∨ (Rect.unit (s := S18000x128) (fun _ => 0) (fun a => (Pipeline.Clip.of (cc0_transform_4 i a) (S18000x128.size a) (S100000x128.size a)).extent (S18000x128.size a)) fun a => (Nat.zero_add _).trans_le (Pipeline.Clip.extent_le (Pipeline.Clip.ok_of (hstart0_4 i a)))).WholeWords (EltTy.packing .f32)

variable [Facts₀]

def dot_S18000x128_S128x128_S18000x128_1_0_0_1_n_n : DotDims S18000x128 S128x128 S18000x128 where
  lhsContracting := [1]
  rhsContracting := [0]
  lhsNonContracting := [0]
  rhsNonContracting := [1]
  lhsBatch := []
  rhsBatch := []
  wf := dot_S18000x128_S128x128_S18000x128_1_0_0_1_n_n_wf

abbrev win0_0 : Pipeline.Window sig grid0 :=
  Pipeline.Window.ofSpecClip (Memref.whole main_arg0) S18000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S18000x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S18000x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S_ : Shape := ⟨0, ![]⟩
abbrev S100000 : Shape := ⟨1, ![100000]⟩

abbrev nBuf : Space → Nat
  | .hbm => 15
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S100000, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S100000x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S_S100000 : S_.BroadcastsInDim S100000 (![] : Fin 0 → Fin S100000.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.FrameWords.lean ====
/-
  The word-level program's frame. One grid point works on a tile of 18000 rows of the two feature matrices (the first
  point on the arrays' last 10000 rows, its buffers' other rows holding words nothing names) and on the two 128 × 128
  weight matrices, which are fetched once. The body reads the four buffers and overwrites the result's. Every
  execution therefore ends with the four argument arrays as they were; what the result array ends holding is not
  stated here.
-/
import proofs.«142395_g1125281432215_week1_w3_1517_25_alg».proof.Proof.Gen.Kernel.Frame
import proofs.«142395_g1125281432215_week1_w3_1517_25_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point: a tile of rows -/

/-- The whole of a row tile's staging buffer, and of a weight matrix's: every access of the body is one of these. -/
abbrev rT : Rect S18000x128 := Rect.unit (s := S18000x128) ![0, 0] S18000x128.size inb_S18000x128_S18000x128_0_0
abbrev rW : Rect S128x128 := Rect.unit (s := S128x128) ![0, 0] S128x128.size inb_S128x128_S128x128_0_0

theorem hz : (![0, 0] : Fin 2 → Nat) = fun _ => 0 := funext fun a => by fin_cases a <;> rfl

/-- What the body leaves in the result's buffer from the two row tiles `x0`, `x1` and the two weight matrices:
    its one store, of `max (x0 · ws + x1 · wn, 0)`, over the whole buffer. -/
def outTile (x0 : Vec F S18000x128 .f32) (ws : Vec F S128x128 .f32) (x1 : Vec F S18000x128 .f32) (wn : Vec F S128x128 .f32) :
    Vec F S18000x128 .f32 :=
  View.canon [⟨rT, k0_pay1 (View.ld x0 rT) (View.ld ws rW) (View.ld x1 rT) (View.ld wn rW)⟩]

/-- The store is of the whole buffer and the loads are of whole buffers: the buffer ends at the payload itself. -/
theorem outTile_eq (x0 : Vec F S18000x128 .f32) (ws : Vec F S128x128 .f32) (x1 : Vec F S18000x128 .f32) (wn : Vec F S128x128 .f32) :
    outTile x0 ws x1 wn = k0_pay1 x0 ws x1 wn := by
  unfold outTile
  rw [View.canon_unit_zero hz]
  simp only [View.ld_unit_zero (S := S18000x128) hz, View.ld_unit_zero (S := S128x128) hz]

/-- The one store covers the buffer. -/
theorem coverTile (p0 : Vec F S18000x128 .f32) (y : S18000x128.Idx) :
    ∃ pc ∈ ([⟨rT, p0⟩] : List (View.Piece (Elt F) S18000x128 .f32)), y ∈ pc.1.set :=
  ⟨⟨rT, p0⟩, List.mem_singleton.mpr rfl, View.mem_set_unit_zero hz inb_S18000x128_S18000x128_0_0 y⟩

set_option maxHeartbeats 1000000 in
/-- The body on whole staging memrefs: the two row tiles and the two weight matrices are read and left as they
    were; the result's buffer, whatever it held (the body also reads it, and drops what it read), ends at `outTile`. -/
theorem sound_kernel (c : Dev nD) (E : Set ℕ) (i : grid0.Coords)
    (arg1 : Memref sig .tc .vmem S18000x128 .f32) (harg1 : arg1.IsWhole) (arg2 : Memref sig .tc .vmem S18000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S18000x128 .f32) (harg5 : arg5.IsWhole)
    (x0 x1 : Vec F S18000x128 .f32) (ws wn : Vec F S128x128 .f32) (K : PUnit → sProp 𝕄) :
    iprop(owns (c : Thread nD τ) arg1 fullShare x0 ∗ owns (c : Thread nD τ) arg2 fullShare x1
        ∗ owns (c : Thread nD τ) arg3 fullShare ws ∗ owns (c : Thread nD τ) arg4 fullShare wn
        ∗ (∃ d, owns (c : Thread nD τ) arg5 fullShare d)
        ∗ (iprop(owns (c : Thread nD τ) arg1 fullShare x0 ∗ owns (c : Thread nD τ) arg2 fullShare x1
            ∗ owns (c : Thread nD τ) arg3 fullShare ws ∗ owns (c : Thread nD τ) arg4 fullShare wn
            ∗ owns (c : Thread nD τ) arg5 fullShare (outTile x0 ws x1 wn)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverTile _)

/-! ## The proof data -/

/-- A row tile as the region finds it in its array, padded out to the buffer's 18000 rows by zeros: at the grid's
    first point the tile is the array's last 10000 rows and the buffer's other 8000 rows hold words nothing names. -/
def tile0 (c : Dev nD) (t : Fin cfg0.N) : S18000x128.Idx → Elt F .f32 :=
  win0_0.fill (grid0.coords t) (fun _ => Scalar.ofBits .f32 0#32) (iblk m c 0 t)
def tile1 (c : Dev nD) (t : Fin cfg0.N) : S18000x128.Idx → Elt F .f32 :=
  win0_1.fill (grid0.coords t) (fun _ => Scalar.ofBits .f32 0#32) (iblk m c 1 t)

/-- The proof data of the one pipeline on core `c`: the arrays as the region finds them; after the body the two row
    tiles' buffers at their tiles, the two weight matrices' at the matrices, the result's at `outTile` of those;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile0 m c t
    | ⟨1, _⟩ => tile1 m c t
    | ⟨2, _⟩ => iblk m c 2 t
    | ⟨3, _⟩ => iblk m c 3 t
    | ⟨4, _⟩ => outTile (tile0 m c t) (iblk m c 2 t) (tile1 m c t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = tile0 m c t := by dsimp only [dats]
theorem after_1 (c : Dev nD) (t : Fin cfg0.N) : (dats m 0 c).after 1 t = tile1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outTile (tile0 m c t) (iblk m c 2 t) (tile1 m c t) (iblk m c 3 t) := by dsimp only [dats]

/-- What the body finds. The two row tiles are fetched at every point: the tile on the rows inside the array, `d`
    past its end. -/
theorem before_0 (c : Dev nD) (t : Fin cfg0.N) (d) :
    (dats m 0 c).before 0 t d = win0_0.fill (grid0.coords t) d (iblk m c 0 t) := by
  rw [(dats m 0 c).before_fetched 0 t (fetch0_0 t) d]; rfl
theorem before_1 (c : Dev nD) (t : Fin cfg0.N) (d) :
    (dats m 0 c).before 1 t d = win0_1.fill (grid0.coords t) d (iblk m c 1 t) := by
  rw [(dats m 0 c).before_fetched 1 t (fetch0_1 t) d]; rfl
/-- The weight matrices are fetched once and found again at every later point. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- A padded tile, cut back to the rows inside the array, is the tile. -/
theorem cut_tile0 (c : Dev nD) (t : Fin cfg0.N) : win0_0.cut (grid0.coords t) (tile0 m c t) = iblk m c 0 t :=
  win0_0.cut_fill _ _ _
theorem cut_tile1 (c : Dev nD) (t : Fin cfg0.N) : win0_1.cut (grid0.coords t) (tile1 m c t) = iblk m c 1 t :=
  win0_1.cut_fill _ _ _

/-! ## The body obligation, the result's buffer forgotten

At the word level the matrix unit's term for a row is not opened here, so nothing is said of what the body leaves in
the result's buffer: that window is handed over and taken back at contents nothing names. The frame reads only the
argument arrays. -/

/-- The result's window, and no other. -/
abbrev forgetOut : Fin cfg0.W → Bool := fun | 0 => false | 1 => false | 2 => false | 3 => false | 4 => true | ⟨_ + 5, h⟩ => absurd h (Nat.not_lt.2 (Nat.le_add_left _ _))

theorem body_obligation (c : Dev nD) :
    BodyObligationLoose (dats (F := F) m 0 c) (defs₀ (F := F)) Variants.none () Set.univ forgetOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%X4, H4⟩⟩
  rw [before_0 m c t d0, before_1 m c t d1, before_2 m c t d2, before_3 m c t d3]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists X4; iexact H4
  iintro ⟨H0, H1, H2, H3, H4⟩
  isplitl [HΦ]; · iexact HΦ
  isplitl [Ho]; · iexact Ho
  isplitl [H0]
  · iexists d0; rw [after_0, cut_tile0]; iexact H0
  isplitl [H1]
  · iexists d1; rw [after_1, cut_tile1]; iexact H1
  isplitl [H2]
  · rw [after_2]; iexact H2
  isplitl [H3]
  · rw [after_3]; iexact H3
  · iexists _; iexact H4

/-! ## The run and the frame -/

set_option backward.isDefEq.respectTransparency.types false in
/-- From any memory with zero counters every weakly fair execution of @main terminates, and every argument array and
    every other unscoped buffer ends as the region found it; of the result array nothing is said. -/
theorem run_main : θ_run defs (onTc (τ := τ) (main (F := F))) (s₀ m ρ)
    (Pipeline.RDat.FramePost cfg0 (fun c => (dats m 0 c).toRForget forgetOut) (V m)) :=
  Pipeline.RDat.θ_run_frame cfgs (0 : Fin 1) launch0 defs₀ Variants.none (fun c => (dats m 0 c).toRForget forgetOut) m ρ main
    (hbody := fun c => (body_obligation m c).toRForget) (hshare := fun c => ((dats m 0 c).toRForget forgetOut).share_full fun _ => rfl)
    (howed := fun _ _ => rfl) (V := V m) (hmain := hmain m Variants.none) (hA := A_eq m) (hΦ := fun _ _ => rfl)

/-- The frame: the four argument arrays are input windows' arrays, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(congrFun (((dats m 0 c).toRForget forgetOut).ArrAt_in 0 rfl _) _).mp ((h c).1 0),
     (congrFun (((dats m 0 c).toRForget forgetOut).ArrAt_in 1 rfl _) _).mp ((h c).1 1),
     (congrFun (((dats m 0 c).toRForget forgetOut).ArrAt_in 2 rfl _) _).mp ((h c).1 2),
     (congrFun (((dats m 0 c).toRForget forgetOut).ArrAt_in 3 rfl _) _).mp ((h c).1 3)⟩) (run_main m ρ)

end Cert.Kernel.Rows

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Entry.lean ====
/-
  One entry of the layer, as a function of its two inner products: their sum, clamped at zero from below. Over the
  extended reals the kernel's `arith.maximumf` against a splat zero and the reference's `stablehlo.maximum` against a
  broadcast zero are this one function of the same two numbers.
-/
import Idealize.ShloMosaic.PureOps.Ideal

noncomputable section

namespace Cert.Spec

open Idealize.ShloMosaic

/-- `max (a + b, 0)` on the extended reals. -/
def entry (a b : Ideal .f32) : Ideal .f32 :=
  FloatOps.maximumf (F := Ideal) (φ := .f32) (FloatOps.addf (F := Ideal) (φ := .f32) a b) (Ideal.ofBits .f32 0x00000000#32)

end Cert.Spec

end
-- ==== Proof.TileRows.lean ====
/-
  A tile of rows, over the extended reals. The body's payload at row `r`, column `q` of the tile is
  `max (Σₖ x0 (r, k) · ws (k, q) + Σₖ x1 (r, k) · wn (k, q), 0)`: each matrix product into a zero accumulator is the
  textbook sum over the contracted index, and `0 + s = s` for every extended real `s`. So row `r` of the payload reads
  row `r` of each tile and nothing else of them: two pairs of tiles that agree on a row give the same payload on
  that row, whatever their other rows hold.
-/
import proofs.«142395_g1125281432215_week1_w3_1517_25_alg».proof.Proof.Gen.KernelIdeal.Skeleton
import proofs.«142395_g1125281432215_week1_w3_1517_25_alg».proof.Proof.LibAffineRows
import proofs.«142395_g1125281432215_week1_w3_1517_25_alg».proof.Proof.Entry
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The tile's dimension numbers are a plain matrix product's -/

theorem lhs_tile_0 (i : S18000x128.Idx) (q : dot_S18000x128_S128x128_S18000x128_1_0_0_1_n_n.contr.Idx) :
    (dot_S18000x128_S128x128_S18000x128_1_0_0_1_n_n.lhsIdx i q 0).val = (i 0).val := by
  unfold DotDims.lhsIdx
  rw [dif_neg (show ¬(0 : Fin S18000x128.rank) ∈ dot_S18000x128_S128x128_S18000x128_1_0_0_1_n_n.lhsBatch by decide), dif_pos (show (0 : Fin S18000x128.rank) ∈ dot_S18000x128_S128x128_S18000x128_1_0_0_1_n_n.lhsNonContracting by decide)]
  rfl
theorem lhs_tile_1 (i : S18000x128.Idx) (q : dot_S18000x128_S128x128_S18000x128_1_0_0_1_n_n.contr.Idx) :
    (dot_S18000x128_S128x128_S18000x128_1_0_0_1_n_n.lhsIdx i q 1).val = (q ⟨0, by decide⟩).val :=
  dot_S18000x128_S128x128_S18000x128_1_0_0_1_n_n.lhsIdx_val_of_single rfl i q
theorem rhs_tile_0 (i : S18000x128.Idx) (q : dot_S18000x128_S128x128_S18000x128_1_0_0_1_n_n.contr.Idx) :
    (dot_S18000x128_S128x128_S18000x128_1_0_0_1_n_n.rhsIdx i q 0).val = (q ⟨0, by decide⟩).val :=
  dot_S18000x128_S128x128_S18000x128_1_0_0_1_n_n.rhsIdx_val_of_single rfl i q
theorem rhs_tile_1 (i : S18000x128.Idx) (q : dot_S18000x128_S128x128_S18000x128_1_0_0_1_n_n.contr.Idx) :
    (dot_S18000x128_S128x128_S18000x128_1_0_0_1_n_n.rhsIdx i q 1).val = (i 1).val := by
  unfold DotDims.rhsIdx
  rw [dif_neg (show ¬(1 : Fin S128x128.rank) ∈ dot_S18000x128_S128x128_S18000x128_1_0_0_1_n_n.rhsBatch by decide), dif_pos (show (1 : Fin S128x128.rank) ∈ dot_S18000x128_S128x128_S18000x128_1_0_0_1_n_n.rhsNonContracting by decide)]
  rfl

/-- [18000, 128] · [128, 128]: one contracted index of extent 128, the left operand's column and the right's row. -/
theorem tileDot : Cert.Lib.PlainDot (R := 18000) (K := 128) (M := 128) dot_S18000x128_S128x128_S18000x128_1_0_0_1_n_n where
  rank := rfl
  size := rfl
  l0 := lhs_tile_0
  l1 := lhs_tile_1
  r0 := rhs_tile_0
  r1 := rhs_tile_1

/-- A tile's product into the zero accumulator, at `(r, q)`: the sum over the contracted index. -/
theorem matmul_zero_apply (x : FVec Ideal S18000x128 .f32) (w : FVec Ideal S128x128 .f32) (r : Fin 18000) (q : Fin 128) :
    matmul dot_S18000x128_S128x128_S18000x128_1_0_0_1_n_n none x w (constant S18000x128 .f32 0x00000000#32) (ix2 r q)
      = ∑ k : Fin 128, x (ix2 r k) * w (ix2 k q) := by
  simp only [matmul]
  rw [Ideal.matmul_constant_zero_apply]
  exact tileDot.sum_eq (fun i => x i) (fun i => w i) r q

/-! ## The payload at an index -/

/-- The payload at `(r, q)`. -/
theorem pay_apply (x0 : Vec Ideal S18000x128 .f32) (ws : Vec Ideal S128x128 .f32) (x1 : Vec Ideal S18000x128 .f32) (wn : Vec Ideal S128x128 .f32)
    (r : Fin 18000) (q : Fin 128) :
    k0_pay1 (F := Ideal) x0 ws x1 wn (ix2 r q)
      = Cert.Spec.entry (∑ k : Fin 128, x0 (ix2 r k) * ws (ix2 k q)) (∑ k : Fin 128, x1 (ix2 r k) * wn (ix2 k q)) := by
  unfold k0_pay1
  exact congrArg₂ Cert.Spec.entry (matmul_zero_apply x0 ws r q) (matmul_zero_apply x1 wn r q)

/-- The same at any index of the tile, by its coordinates. -/
theorem pay_at (x0 : Vec Ideal S18000x128 .f32) (ws : Vec Ideal S128x128 .f32) (x1 : Vec Ideal S18000x128 .f32) (wn : Vec Ideal S128x128 .f32)
    (y : S18000x128.Idx) :
    k0_pay1 (F := Ideal) x0 ws x1 wn y
      = Cert.Spec.entry (∑ k : Fin 128, x0 (ix2 (y 0) k) * ws (ix2 k (y 1))) (∑ k : Fin 128, x1 (ix2 (y 0) k) * wn (ix2 k (y 1))) := by
  obtain ⟨r, q, rfl⟩ : ∃ (r : Fin 18000) (q : Fin 128), y = ix2 r q := ⟨y 0, y 1, eq_ix2 y⟩
  exact pay_apply x0 ws x1 wn r q

/-- Row by row: the payload at an index of row `y 0` reads that row of the two tiles only. -/
theorem pay_rows (x0 x0' : Vec Ideal S18000x128 .f32) (ws : Vec Ideal S128x128 .f32) (x1 x1' : Vec Ideal S18000x128 .f32) (wn : Vec Ideal S128x128 .f32)
    (y : S18000x128.Idx)
    (h0 : ∀ k : Fin 128, x0 (ix2 (y 0) k) = x0' (ix2 (y 0) k)) (h1 : ∀ k : Fin 128, x1 (ix2 (y 0) k) = x1' (ix2 (y 0) k)) :
    k0_pay1 (F := Ideal) x0 ws x1 wn y = k0_pay1 (F := Ideal) x0' ws x1' wn y := by
  obtain ⟨r, q, rfl⟩ : ∃ (r : Fin 18000) (q : Fin 128), y = ix2 r q := ⟨y 0, y 1, eq_ix2 y⟩
  rw [pay_apply, pay_apply]
  exact congrArg₂ Cert.Spec.entry (Finset.sum_congr rfl fun k _ => congrArg (· * ws (ix2 k q)) (h0 k))
    (Finset.sum_congr rfl fun k _ => congrArg (· * wn (ix2 k q)) (h1 k))

end Cert.KernelIdeal.Tile

end
-- ==== Proof.FrameIdeal.lean ====
/-
  The idealized program's run, with the result's buffer named. One grid point works on a tile of 18000 rows of the two
  feature matrices and on the two 128 × 128 weight matrices. At the grid's first point the tile is the arrays' last
  10000 rows and the buffers' other 8000 rows hold words nothing names; the body computes on all 18000 rows, and the
  write-back keeps the first 10000. Over the extended reals row `r` of the body's result reads row `r` of each tile
  only, so on the rows written back the result is the one computed from the tiles padded by zeros — which is what the
  proof data names. Every execution ends with the argument arrays as they were and the result array at what the
  write-backs of the six points leave.
-/
import proofs.«142395_g1125281432215_week1_w3_1517_25_alg».proof.Proof.Gen.KernelIdeal.Frame
import proofs.«142395_g1125281432215_week1_w3_1517_25_alg».proof.Proof.Gen.KernelIdeal.Skeleton
import Idealize.ShloMosaic.Lib.Pipeline.FrameBody
import Idealize.ShloMosaic.Lib.Pipeline.Value
import Idealize.ShloMosaic.Lib.Tactic
import proofs.«142395_g1125281432215_week1_w3_1517_25_alg».proof.Proof.TileRows

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point: a tile of rows -/

/-- The whole of a row tile's staging buffer, and of a weight matrix's: every access of the body is one of these. -/
abbrev rT : Rect S18000x128 := Rect.unit (s := S18000x128) ![0, 0] S18000x128.size inb_S18000x128_S18000x128_0_0
abbrev rW : Rect S128x128 := Rect.unit (s := S128x128) ![0, 0] S128x128.size inb_S128x128_S128x128_0_0

theorem hz : (![0, 0] : Fin 2 → Nat) = fun _ => 0 := funext fun a => by fin_cases a <;> rfl

/-- What the body leaves in the result's buffer from the two row tiles `x0`, `x1` and the two weight matrices:
    its one store, of `max (x0 · ws + x1 · wn, 0)`, over the whole buffer. -/
def outTile (x0 : Vec F S18000x128 .f32) (ws : Vec F S128x128 .f32) (x1 : Vec F S18000x128 .f32) (wn : Vec F S128x128 .f32) :
    Vec F S18000x128 .f32 :=
  View.canon [⟨rT, k0_pay1 (View.ld x0 rT) (View.ld ws rW) (View.ld x1 rT) (View.ld wn rW)⟩]

/-- The store is of the whole buffer and the loads are of whole buffers: the buffer ends at the payload itself. -/
theorem outTile_eq (x0 : Vec F S18000x128 .f32) (ws : Vec F S128x128 .f32) (x1 : Vec F S18000x128 .f32) (wn : Vec F S128x128 .f32) :
    outTile x0 ws x1 wn = k0_pay1 x0 ws x1 wn := by
  unfold outTile
  rw [View.canon_unit_zero hz]
  simp only [View.ld_unit_zero (S := S18000x128) hz, View.ld_unit_zero (S := S128x128) hz]

/-- The one store covers the buffer. -/
theorem coverTile (p0 : Vec F S18000x128 .f32) (y : S18000x128.Idx) :
    ∃ pc ∈ ([⟨rT, p0⟩] : List (View.Piece (Elt F) S18000x128 .f32)), y ∈ pc.1.set :=
  ⟨⟨rT, p0⟩, List.mem_singleton.mpr rfl, View.mem_set_unit_zero hz inb_S18000x128_S18000x128_0_0 y⟩

set_option maxHeartbeats 1000000 in
/-- The body on whole staging memrefs: the two row tiles and the two weight matrices are read and left as they
    were; the result's buffer, whatever it held (the body also reads it, and drops what it read), ends at `outTile`. -/
theorem sound_kernel (c : Dev nD) (E : Set ℕ) (i : grid0.Coords)
    (arg1 : Memref sig .tc .vmem S18000x128 .f32) (harg1 : arg1.IsWhole) (arg2 : Memref sig .tc .vmem S18000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S18000x128 .f32) (harg5 : arg5.IsWhole)
    (x0 x1 : Vec F S18000x128 .f32) (ws wn : Vec F S128x128 .f32) (K : PUnit → sProp 𝕄) :
    iprop(owns (c : Thread nD τ) arg1 fullShare x0 ∗ owns (c : Thread nD τ) arg2 fullShare x1
        ∗ owns (c : Thread nD τ) arg3 fullShare ws ∗ owns (c : Thread nD τ) arg4 fullShare wn
        ∗ (∃ d, owns (c : Thread nD τ) arg5 fullShare d)
        ∗ (iprop(owns (c : Thread nD τ) arg1 fullShare x0 ∗ owns (c : Thread nD τ) arg2 fullShare x1
            ∗ owns (c : Thread nD τ) arg3 fullShare ws ∗ owns (c : Thread nD τ) arg4 fullShare wn
            ∗ owns (c : Thread nD τ) arg5 fullShare (outTile x0 ws x1 wn)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverTile _)

/-! ## The proof data -/

/-- A row tile as the region finds it in its array, padded out to the buffer's 18000 rows by zeros: at the grid's
    first point the tile is the array's last 10000 rows and the buffer's other 8000 rows hold words nothing names. -/
def tile0 (c : Dev nD) (t : Fin cfg0.N) : S18000x128.Idx → Elt F .f32 :=
  win0_0.fill (grid0.coords t) (fun _ => Scalar.ofBits .f32 0#32) (iblk m c 0 t)
def tile1 (c : Dev nD) (t : Fin cfg0.N) : S18000x128.Idx → Elt F .f32 :=
  win0_1.fill (grid0.coords t) (fun _ => Scalar.ofBits .f32 0#32) (iblk m c 1 t)

/-- The proof data of the one pipeline on core `c`: the arrays as the region finds them; after the body the two row
    tiles' buffers at their tiles, the two weight matrices' at the matrices, the result's at `outTile` of those;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tile0 m c t
    | ⟨1, _⟩ => tile1 m c t
    | ⟨2, _⟩ => iblk m c 2 t
    | ⟨3, _⟩ => iblk m c 3 t
    | ⟨4, _⟩ => outTile (tile0 m c t) (iblk m c 2 t) (tile1 m c t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = tile0 m c t := by dsimp only [dats]
theorem after_1 (c : Dev nD) (t : Fin cfg0.N) : (dats m 0 c).after 1 t = tile1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outTile (tile0 m c t) (iblk m c 2 t) (tile1 m c t) (iblk m c 3 t) := by dsimp only [dats]

/-- What the body finds. The two row tiles are fetched at every point: the tile on the rows inside the array, `d`
    past its end. -/
theorem before_0 (c : Dev nD) (t : Fin cfg0.N) (d) :
    (dats m 0 c).before 0 t d = win0_0.fill (grid0.coords t) d (iblk m c 0 t) := by
  rw [(dats m 0 c).before_fetched 0 t (fetch0_0 t) d]; rfl
theorem before_1 (c : Dev nD) (t : Fin cfg0.N) (d) :
    (dats m 0 c).before 1 t d = win0_1.fill (grid0.coords t) d (iblk m c 1 t) := by
  rw [(dats m 0 c).before_fetched 1 t (fetch0_1 t) d]; rfl
/-- The weight matrices are fetched once and found again at every later point. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- A padded tile, cut back to the rows inside the array, is the tile. -/
theorem cut_tile0 (c : Dev nD) (t : Fin cfg0.N) : win0_0.cut (grid0.coords t) (tile0 m c t) = iblk m c 0 t :=
  win0_0.cut_fill _ _ _
theorem cut_tile1 (c : Dev nD) (t : Fin cfg0.N) : win0_1.cut (grid0.coords t) (tile1 m c t) = iblk m c 1 t :=
  win0_1.cut_fill _ _ _

/-! ## The body obligation over the extended reals -/

section AtIdeal

variable (mI : (ℓ : Loc nD τ sig) → Buf (Elt Ideal) ℓ)

/-- The three row windows are cut alike at every point (one block shape, one index map, one array shape), and never
    on the columns. -/
theorem cuts (t : Fin cfg0.N) :
    win0_0.xsize (grid0.coords t) 0 = win0_4.xsize (grid0.coords t) 0 ∧ win0_1.xsize (grid0.coords t) 0 = win0_4.xsize (grid0.coords t) 0
      ∧ win0_0.xsize (grid0.coords t) 1 = 128 ∧ win0_1.xsize (grid0.coords t) 1 = 128 :=
  (by decide +kernel : ∀ t : Fin grid0.N,
    win0_0.xsize (grid0.coords t) 0 = win0_4.xsize (grid0.coords t) 0 ∧ win0_1.xsize (grid0.coords t) 0 = win0_4.xsize (grid0.coords t) 0
      ∧ win0_0.xsize (grid0.coords t) 1 = 128 ∧ win0_1.xsize (grid0.coords t) 1 = 128) t

/-- Where a fetch lands, the buffer's earlier contents do not show. -/
theorem fill_indep {α : Type} (w : Window sig grid0) (i : grid0.Coords) (d d' : w.block.Idx → α) (g : (w.xblock i).Idx → α)
    (y : w.block.Idx) (h : w.moved i y = true) : w.fill i d g y = w.fill i d' g y := by
  unfold Window.fill; rw [dif_pos h, dif_pos h]

/-- On the rows the write-back keeps, the body's result does not depend on what the tiles' buffers held past the
    arrays' end: row `r` of either product reads row `r` of its tile only. -/
theorem cut_out (c : Dev nD) (t : Fin cfg0.N) (d0 d1 : S18000x128.Idx → Elt Ideal .f32) :
    win0_4.cut (grid0.coords t) (outTile (win0_0.fill (grid0.coords t) d0 (iblk mI c 0 t)) (iblk mI c 2 t)
        (win0_1.fill (grid0.coords t) d1 (iblk mI c 1 t)) (iblk mI c 3 t))
      = win0_4.cut (grid0.coords t) (outTile (tile0 mI c t) (iblk mI c 2 t) (tile1 mI c t) (iblk mI c 3 t)) := by
  funext j
  obtain ⟨h00, h10, h01, h11⟩ := cuts t
  have hr : ((win0_4.xinj (grid0.coords t) j) 0).val < win0_4.xsize (grid0.coords t) 0 := (j 0).isLt
  show outTile _ _ _ _ (win0_4.xinj (grid0.coords t) j) = outTile _ _ _ _ (win0_4.xinj (grid0.coords t) j)
  rw [outTile_eq, outTile_eq]
  refine Cert.KernelIdeal.Tile.pay_rows _ _ _ _ _ _ (win0_4.xinj (grid0.coords t) j) (fun k => ?_) (fun k => ?_)
  · exact fill_indep win0_0 _ _ _ _ _ ((win0_0.moved_iff _ _).mpr fun a => by
      match a with
      | ⟨0, _⟩ => show ((win0_4.xinj (grid0.coords t) j) 0).val < win0_0.xsize (grid0.coords t) 0; rw [h00]; exact hr
      | ⟨1, _⟩ => show k.val < win0_0.xsize (grid0.coords t) 1; rw [h01]; exact k.isLt)
  · exact fill_indep win0_1 _ _ _ _ _ ((win0_1.moved_iff _ _).mpr fun a => by
      match a with
      | ⟨0, _⟩ => show ((win0_4.xinj (grid0.coords t) j) 0).val < win0_1.xsize (grid0.coords t) 0; rw [h10]; exact hr
      | ⟨1, _⟩ => show k.val < win0_1.xsize (grid0.coords t) 1; rw [h11]; exact k.isLt)

theorem body_obligation (c : Dev nD) :
    BodyObligationLoose (dats (F := Ideal) mI 0 c) (defs₀ (F := Ideal)) Variants.none () Set.univ := fun t => by
  rw [bigSep_W0, bigSep_W0]
  simp only
  rw [show (dats mI 0 c).Φ t.succ = (dats mI 0 c).Φ t.castSucc from rfl,
    show (dats mI 0 c).owesAt () t.succ = (dats mI 0 c).owesAt () t.castSucc from rfl]
  iintro ⟨HΦ, Ho, ⟨%d0, H0⟩, ⟨%d1, H1⟩, ⟨%d2, H2⟩, ⟨%d3, H3⟩, ⟨%d4, H4⟩⟩
  rw [before_0 mI c t d0, before_1 mI c t d1, before_2 mI c t d2, before_3 mI c t d3]
  iapply (sound_kernel (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (iblk mI c 0 t)) (win0_1.fill (grid0.coords t) d1 (iblk mI c 1 t)) (iblk mI c 2 t) (iblk mI c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0; rw [after_0, cut_tile0]; iexact H0
  isplitl [H1]
  · iexists d1; rw [after_1, cut_tile1]; iexact H1
  isplitl [H2]
  · rw [after_2]; iexact H2
  isplitl [H3]
  · rw [after_3]; iexact H3
  · iexists outTile (win0_0.fill (grid0.coords t) d0 (iblk mI c 0 t)) (iblk mI c 2 t) (win0_1.fill (grid0.coords t) d1 (iblk mI c 1 t)) (iblk mI c 3 t)
    rw [after_4, win0_4.fill_congr_cut (grid0.coords t) (cut_out mI c t d0 d1)]
    iexact H4

/-! ## The run and the frame -/

set_option backward.isDefEq.respectTransparency.types false in
/-- From any memory with zero counters every weakly fair execution of @main terminates with every array of the
    pipeline at what the proof data computes and every other unscoped buffer as the region found it. -/
theorem run_main : θ_run defs (onTc (τ := τ) (main (F := Ideal))) (s₀ mI ρ) (Pipeline.FramePost cfgs (dats mI) 0 (V mI)) :=
  Pipeline.θ_run_frame cfgs (dats mI) (0 : Fin 1) launch0 defs₀ Variants.none mI ρ main
    (hbody := fun c => body_obligation mI c) (hshare := fun c => (dats mI 0 c).share_full fun _ => rfl)
    (howed := fun _ _ => rfl) (V := V mI) (hmain := hmain mI Variants.none) (hA := A_eq mI) (hΦ := fun _ _ => rfl)

/-- The frame: the argument arrays end as they were. -/
theorem frame : θ_run defs (onTc (τ := τ) (main (F := Ideal))) ⟨mI, fun _ => 0, ρ⟩ (fun r => ∀ c : Dev nD,
      r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)) :=
  frame_of mI ρ (dats mI) (A_eq mI) (run_main (ρ := ρ) (mI := mI))

end AtIdeal

end Cert.KernelIdeal.Rows

end
-- ==== Proof.WholeRows.lean ====
/-
  The reference at an index, over the extended reals: entry `(n, q)` of its result is
  `max (Σₖ src (n, k) · W_self (k, q) + Σₖ neigh (n, k) · W_neigh (k, q), 0)`: each `dot_general` is the textbook sum over
  the contracted index, the two products are added in that order, and the `maximum` is against a broadcast zero.
  (The row means the reference computes and drops do not reach its result.)
-/
import proofs.«142395_g1125281432215_week1_w3_1517_25_alg».proof.Proof.Gen.ReferenceIdeal.Read
import proofs.«142395_g1125281432215_week1_w3_1517_25_alg».proof.Proof.LibAffineRows
import proofs.«142395_g1125281432215_week1_w3_1517_25_alg».proof.Proof.Entry
import Idealize.ShloMosaic.Lib.ValueIdx
import Idealize.ShloMosaic.PureOps.Ideal.Laws

noncomputable section

namespace Cert.ReferenceIdeal.Whole

open Cert.ReferenceIdeal Cert.ReferenceIdeal.Gen Cert.ReferenceIdeal.Read Idealize.ShloMosaic Idealize.ShloMosaic.ValueIdx

/-- [100000, 128] · [128, 128]: one contracted index of extent 128, the left operand's column and the right's row
    (the four axis facts are the ones stated beside the reference's first product). -/
theorem wholeDot : Cert.Lib.PlainDot (R := 100000) (K := 128) (M := 128) dot_S100000x128_S128x128_S100000x128_1_0_0_1_n_n where
  rank := rfl
  size := rfl
  l0 := lhs_main_v3_0
  l1 := lhs_main_v3_1
  r0 := rhs_main_v3_0
  r1 := rhs_main_v3_1

/-- The reference's result at `(n, q)`. -/
theorem result_apply (src neigh : (⟨S100000x128, .f32⟩ : BufTy).Contents (Elt Ideal)) (wself wneigh : (⟨S128x128, .f32⟩ : BufTy).Contents (Elt Ideal))
    (n : Fin 100000) (q : Fin 128) :
    val_main_v6 (F := Ideal) src neigh wself wneigh (ix2 n q)
      = Cert.Spec.entry (∑ k : Fin 128, src (ix2 n k) * wself (ix2 k q)) (∑ k : Fin 128, neigh (ix2 n k) * wneigh (ix2 k q)) := by
  rw [val_main_v6_apply, val_main_v5_apply, val_main_call0_v0_apply, val_main_call0_cst_apply]
  unfold val_main_v4 val_main_v3
  exact congrArg₂ Cert.Spec.entry (Cert.Lib.dotGeneral_apply wholeDot src wself n q) (Cert.Lib.dotGeneral_apply wholeDot neigh wneigh n q)

/-- The same at any index of the result, by its coordinates. -/
theorem result_at (src neigh : (⟨S100000x128, .f32⟩ : BufTy).Contents (Elt Ideal)) (wself wneigh : (⟨S128x128, .f32⟩ : BufTy).Contents (Elt Ideal))
    (i : S100000x128.Idx) :
    val_main_v6 (F := Ideal) src neigh wself wneigh i
      = Cert.Spec.entry (∑ k : Fin 128, src (ix2 (i 0) k) * wself (ix2 k (i 1))) (∑ k : Fin 128, neigh (ix2 (i 0) k) * wneigh (ix2 k (i 1))) := by
  obtain ⟨n, q, rfl⟩ : ∃ (n : Fin 100000) (q : Fin 128), i = ix2 n q := ⟨i 0, i 1, eq_ix2 i⟩
  exact result_apply src neigh wself wneigh n q

end Cert.ReferenceIdeal.Whole

end
-- ==== Proof.Layer.lean ====
/-
  From tiles to the whole result. The six grid points take the row blocks of the result in reverse order — point `t`
  writes back block `5 − t`, the first point the last block, cut to the array's last 10000 rows —, and together the six
  blocks are the array's 100000 rows. On the rows a point writes back, the body's result at row `r` of the tile is the
  layer's row `(5 − t) · 18000 + r`: the tile's row is that row of each feature matrix, and the weight matrices are
  whole. So the result array ends holding the layer — as ONE function of the four argument arrays, the reference's own
  term.
-/
import proofs.«142395_g1125281432215_week1_w3_1517_25_alg».proof.Proof.FrameIdeal
import proofs.«142395_g1125281432215_week1_w3_1517_25_alg».proof.Proof.WholeRows
import Idealize.ShloMosaic.Lib.Pipeline.Value
import Idealize.ShloMosaic.Lib.ValueIdx

set_option maxRecDepth 16384

noncomputable section

namespace Cert.KernelIdeal.Layer

open Cert.KernelIdeal Cert.KernelIdeal.Gen Cert.KernelIdeal.Rows
open Idealize.ShloMosaic Idealize.ShloMosaic.TcCoe Idealize.ShloMosaic.ValueIdx
open Idealize.SL Idealize.SL.Sem
open Idealize.ShloMosaic.Pipeline (Dat Cfg Window)

variable (mI : (ℓ : Loc nD τ sig) → Buf (Elt Ideal) ℓ) (ρ : Dev nD → PrngReg)

/-- The layer `max (src · W_self + neigh · W_neigh, 0)` of the argument arrays as the region finds them. -/
def layer (c : Dev nD) : Buf (Elt Ideal) ((c.tc : Thread nD τ).loc main_v0) :=
  Cert.ReferenceIdeal.Read.val_main_v6 (F := Ideal) (V mI c main_arg0) (V mI c main_arg1) (V mI c main_arg2) (V mI c main_arg3)

/-! ## Where the blocks lie -/

/-- The three row windows take one block index, which is `5 − t`; no window moves along the columns; the weight
    matrices' one block is the whole matrix. The last block — the first point's — is cut to 10000 rows. -/
theorem where_ (t : Fin cfg0.N) :
    win0_4.index t 0 = 5 - t.val ∧ win0_0.index t 0 = 5 - t.val ∧ win0_1.index t 0 = 5 - t.val
      ∧ win0_4.index t 1 = 0 ∧ win0_0.index t 1 = 0 ∧ win0_1.index t 1 = 0
      ∧ win0_2.index t 0 = 0 ∧ win0_2.index t 1 = 0 ∧ win0_3.index t 0 = 0 ∧ win0_3.index t 1 = 0
      ∧ win0_4.xsize (grid0.coords t) 1 = 128
      ∧ (win0_4.xsize (grid0.coords t) 0 = 18000 ∨ (t.val = 0 ∧ win0_4.xsize (grid0.coords t) 0 = 10000)) :=
  (by decide +kernel : ∀ t : Fin grid0.N,
    win0_4.index t 0 = 5 - t.val ∧ win0_0.index t 0 = 5 - t.val ∧ win0_1.index t 0 = 5 - t.val
      ∧ win0_4.index t 1 = 0 ∧ win0_0.index t 1 = 0 ∧ win0_1.index t 1 = 0
      ∧ win0_2.index t 0 = 0 ∧ win0_2.index t 1 = 0 ∧ win0_3.index t 0 = 0 ∧ win0_3.index t 1 = 0
      ∧ win0_4.xsize (grid0.coords t) 1 = 128
      ∧ (win0_4.xsize (grid0.coords t) 0 = 18000 ∨ (t.val = 0 ∧ win0_4.xsize (grid0.coords t) 0 = 10000))) t

/-! ## The tiles and the matrices, read at an index -/

/-- A row of the padded first tile that the write-back keeps is the feature matrix's row under it. -/
theorem tile0_row (c : Dev nD) (t : Fin cfg0.N) (j : (win0_4.xblock (grid0.coords t)).Idx) (k : Fin 128) :
    tile0 mI c t (ix2 ((win0_4.xinj (grid0.coords t) j) 0) k) = V mI c main_arg0 (ix2 (((win0_4.blk t).view.emb j) 0) k) := by
  obtain ⟨h00, h10, h01, h11⟩ := cuts t
  obtain ⟨i4, i0, i1, -⟩ := where_ t
  obtain ⟨-, -, -, -, j0, -⟩ := where_ t
  have hr : ((win0_4.xinj (grid0.coords t) j) 0).val < win0_4.xsize (grid0.coords t) 0 := (j 0).isLt
  have hm : win0_0.moved (grid0.coords t) (ix2 ((win0_4.xinj (grid0.coords t) j) 0) k) = true :=
    (win0_0.moved_iff _ _).mpr fun a => by
      match a with
      | ⟨0, _⟩ => show ((win0_4.xinj (grid0.coords t) j) 0).val < win0_0.xsize (grid0.coords t) 0; rw [h00]; exact hr
      | ⟨1, _⟩ => show k.val < win0_0.xsize (grid0.coords t) 1; rw [h01]; exact k.isLt
  unfold tile0 Window.fill
  rw [dif_pos hm]
  unfold iblk
  refine congrArg (V mI c main_arg0) (funext fun a => Fin.ext ?_)
  match a with
  | ⟨0, _⟩ =>
    show win0_0.index t 0 * 18000 + 1 * (j 0).val = win0_4.index t 0 * 18000 + 1 * (j 0).val
    rw [i0, i4]
  | ⟨1, _⟩ =>
    show win0_0.index t 1 * 128 + 1 * k.val = k.val
    rw [j0]; omega

/-- The same for the second tile. -/
theorem tile1_row (c : Dev nD) (t : Fin cfg0.N) (j : (win0_4.xblock (grid0.coords t)).Idx) (k : Fin 128) :
    tile1 mI c t (ix2 ((win0_4.xinj (grid0.coords t) j) 0) k) = V mI c main_arg1 (ix2 (((win0_4.blk t).view.emb j) 0) k) := by
  obtain ⟨h00, h10, h01, h11⟩ := cuts t
  obtain ⟨i4, i0, i1, -⟩ := where_ t
  obtain ⟨-, -, -, -, -, j1, -⟩ := where_ t
  have hr : ((win0_4.xinj (grid0.coords t) j) 0).val < win0_4.xsize (grid0.coords t) 0 := (j 0).isLt
  have hm : win0_1.moved (grid0.coords t) (ix2 ((win0_4.xinj (grid0.coords t) j) 0) k) = true :=
    (win0_1.moved_iff _ _).mpr fun a => by
      match a with
      | ⟨0, _⟩ => show ((win0_4.xinj (grid0.coords t) j) 0).val < win0_1.xsize (grid0.coords t) 0; rw [h10]; exact hr
      | ⟨1, _⟩ => show k.val < win0_1.xsize (grid0.coords t) 1; rw [h11]; exact k.isLt
  unfold tile1 Window.fill
  rw [dif_pos hm]
  unfold iblk
  refine congrArg (V mI c main_arg1) (funext fun a => Fin.ext ?_)
  match a with
  | ⟨0, _⟩ =>
    show win0_1.index t 0 * 18000 + 1 * (j 0).val = win0_4.index t 0 * 18000 + 1 * (j 0).val
    rw [i1, i4]
  | ⟨1, _⟩ =>
    show win0_1.index t 1 * 128 + 1 * k.val = k.val
    rw [j1]; omega

/-- A weight matrix's one block is the matrix. -/
theorem wself_at (c : Dev nD) (t : Fin cfg0.N) (k q : Fin 128) : iblk mI c 2 t (ix2 k q) = V mI c main_arg2 (ix2 k q) := by
  obtain ⟨-, -, -, -, -, -, a0, a1, -⟩ := where_ t
  unfold iblk
  refine congrArg (V mI c main_arg2) (funext fun a => Fin.ext ?_)
  match a with
  | ⟨0, _⟩ => show win0_2.index t 0 * 128 + 1 * k.val = k.val; rw [a0]; omega
  | ⟨1, _⟩ => show win0_2.index t 1 * 128 + 1 * q.val = q.val; rw [a1]; omega
theorem wneigh_at (c : Dev nD) (t : Fin cfg0.N) (k q : Fin 128) : iblk mI c 3 t (ix2 k q) = V mI c main_arg3 (ix2 k q) := by
  obtain ⟨-, -, -, -, -, -, -, -, a0, a1, -⟩ := where_ t
  unfold iblk
  refine congrArg (V mI c main_arg3) (funext fun a => Fin.ext ?_)
  match a with
  | ⟨0, _⟩ => show win0_3.index t 0 * 128 + 1 * k.val = k.val; rw [a0]; omega
  | ⟨1, _⟩ => show win0_3.index t 1 * 128 + 1 * q.val = q.val; rw [a1]; omega

/-- A column of the tile is the same column of the result. -/
theorem col_eq (t : Fin cfg0.N) (j : (win0_4.xblock (grid0.coords t)).Idx) :
    ((win0_4.xinj (grid0.coords t) j) 1 : Fin 128) = ((win0_4.blk t).view.emb j) 1 := by
  obtain ⟨-, -, -, a1, -⟩ := where_ t
  refine Fin.ext ?_
  show (j 1).val = win0_4.index t 1 * 128 + 1 * (j 1).val
  rw [a1]; omega

/-! ## What a point writes back is its block of the layer -/

/-- Equal factors, equal products (stated over the extended reals, so that the arrays' entries are read as such). -/
theorem mul_congr {a a' b b' : EReal} (ha : a = a') (hb : b = b') : a * b = a' * b' := by rw [ha, hb]

theorem flushed_eq (c : Dev nD) (t : Fin cfg0.N) :
    (dats mI 0 c).flushed 4 t = (win0_4.blk t).view.read (Elt Ideal) (layer mI c) := by
  funext j
  show (dats mI 0 c).after 4 t (win0_4.xinj (grid0.coords t) j) = layer mI c ((win0_4.blk t).view.emb j)
  rw [after_4, outTile_eq]
  unfold layer
  refine (Cert.KernelIdeal.Tile.pay_at _ _ _ _ _).trans ((congrArg₂ Cert.Spec.entry ?_ ?_).trans (Cert.ReferenceIdeal.Whole.result_at _ _ _ _ _).symm)
  · exact Finset.sum_congr rfl fun k _ => by
      have e2 : iblk mI c 2 t (ix2 k ((win0_4.xinj (grid0.coords t) j) 1)) = V mI c main_arg2 (ix2 k (((win0_4.blk t).view.emb j) 1)) :=
        (wself_at mI c t k _).trans (congrArg (fun q : Fin 128 => V mI c main_arg2 (ix2 k q)) (col_eq t j))
      exact mul_congr (tile0_row mI c t j k) e2
  · exact Finset.sum_congr rfl fun k _ => by
      have e3 : iblk mI c 3 t (ix2 k ((win0_4.xinj (grid0.coords t) j) 1)) = V mI c main_arg3 (ix2 k (((win0_4.blk t).view.emb j) 1)) :=
        (wneigh_at mI c t k _).trans (congrArg (fun q : Fin 128 => V mI c main_arg3 (ix2 k q)) (col_eq t j))
      exact mul_congr (tile1_row mI c t j k) e3

/-! ## The six blocks are the array -/

/-- A row of the result lies in point `t`'s block iff it is among the block's rows inside the array (every column
    is: the blocks span the columns). -/
theorem mem_blk (t : Fin cfg0.N) (i : S100000x128.Idx) :
    i ∈ (win0_4.blk t).view.set ↔ win0_4.index t 0 * 18000 ≤ (i 0 : Nat) ∧ (i 0 : Nat) < win0_4.index t 0 * 18000 + win0_4.xsize (grid0.coords t) 0 := by
  obtain ⟨-, -, -, a1, -, -, -, -, -, -, x1, -⟩ := where_ t
  show i ∈ ((View.whole main_v0).slice (win0_4.rect t)).set ↔ _
  rw [View.set_slice_whole, Rect.mem_set_unit]
  have h1 : (i 1 : Nat) < 128 := (i 1).isLt
  refine ⟨fun h => h 0, fun h a => ?_⟩
  match a with
  | ⟨0, _⟩ => exact h
  | ⟨1, _⟩ =>
    show win0_4.index t 1 * 128 ≤ (i 1 : Nat) ∧ (i 1 : Nat) < win0_4.index t 1 * 128 + win0_4.xsize (grid0.coords t) 1
    rw [a1, x1]; omega

/-- Row `n` lies in block `n / 18000`, which point `5 − n / 18000` writes back. -/
theorem cover (i : S100000x128.Idx) : ∃ t : Fin cfg0.N, (cfg0.win 4).flush t = true ∧ i ∈ ((cfg0.win 4).blk t).view.set := by
  have hi : (i 0 : Nat) < 100000 := (i 0).isLt
  have hN : 5 - (i 0 : Nat) / 18000 < cfg0.N := by show _ < grid0.N; rw [N_0]; omega
  refine ⟨⟨5 - (i 0 : Nat) / 18000, hN⟩, flush0_4 _, (mem_blk _ i).mpr ?_⟩
  obtain ⟨a0, -, -, -, -, -, -, -, -, -, -, x0⟩ := where_ ⟨5 - (i 0 : Nat) / 18000, hN⟩
  rw [a0]
  show (5 - (5 - (i 0 : Nat) / 18000)) * 18000 ≤ (i 0 : Nat) ∧ (i 0 : Nat) < (5 - (5 - (i 0 : Nat) / 18000)) * 18000 + _
  rcases x0 with x0 | ⟨ht, x0⟩
  · rw [x0]; omega
  · rw [x0]; have ht' : 5 - (i 0 : Nat) / 18000 = 0 := ht; omega

/-- The result array after the six write-backs is the layer. -/
theorem final (c : Dev nD) : (dats mI 0 c).arrAt 4 cfg0.N = layer mI c :=
  (dats mI 0 c).arrAt_eq_of_cover 4 (layer mI c) (fun t _ => flushed_eq mI c t) cover

/-! ## The run -/

/-- Every weakly fair execution of the idealized program terminates with the result array at the layer of the
    argument arrays and those as they were. -/
theorem run : θ_run defs (onTc (τ := τ) (main (F := Ideal))) ⟨mI, fun _ => 0, ρ⟩ (fun r => ∀ c : Dev nD,
      r.2.mem ((c.tc : Thread nD τ).loc main_v0) = layer mI c
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)) :=
  (θ_run defs _ _).mono (fun _ h c =>
    ⟨((h c).1 4).trans (final mI c),
     ((h c).1 0).trans (((dats mI 0 c).arrAt_in 0 rfl _).trans (A_eq mI c 0)),
     ((h c).1 1).trans (((dats mI 0 c).arrAt_in 1 rfl _).trans (A_eq mI c 1)),
     ((h c).1 2).trans (((dats mI 0 c).arrAt_in 2 rfl _).trans (A_eq mI c 2)),
     ((h c).1 3).trans (((dats mI 0 c).arrAt_in 3 rfl _).trans (A_eq mI c 3))⟩) (run_main (ρ := ρ) (mI := mI))

end Cert.KernelIdeal.Layer

end
-- ==== Proof.lean ====
/-
  `relu (src · W_self + neigh · W_neigh)` over [100000, 128] features and [128, 128] weights: one kernel that tiles the
  rows by 18000 (six grid points in reverse block order, the last block cut to the array's 10000 remaining rows),
  against the plain program's two whole products, their sum and the maximum with zero.

  Over the extended reals each product — the matrix unit's into a zero accumulator, the host's `dot_general` — is the
  sum over the contracted index, so row `r` of a tile's result is the plain result's row under it; the rows past the
  array's end that the first point computes on are cut away by its write-back; and the six blocks are the array. No
  law beyond `0 + s = s` joins the two sides, so the inputs' finiteness is not used. The idealization rewrote nothing.
  At the word level only the frame is claimed: the body reads its four inputs and writes the result's buffer.
-/
import proofs.«142395_g1125281432215_week1_w3_1517_25_alg».proof.Defs
import proofs.«142395_g1125281432215_week1_w3_1517_25_alg».proof.Proof.Gen.Kernel
import proofs.«142395_g1125281432215_week1_w3_1517_25_alg».proof.Proof.Gen.KernelIdeal
import proofs.«142395_g1125281432215_week1_w3_1517_25_alg».proof.Proof.Gen.ReferenceIdeal
import proofs.«142395_g1125281432215_week1_w3_1517_25_alg».proof.Proof.Gen.Pre_finite_inputs
import proofs.«142395_g1125281432215_week1_w3_1517_25_alg».proof.Proof.Gen.ReferenceIdeal.Run
import proofs.«142395_g1125281432215_week1_w3_1517_25_alg».proof.Proof.Gen.ReferenceIdeal.Read
import proofs.«142395_g1125281432215_week1_w3_1517_25_alg».proof.Proof.FrameWords
import proofs.«142395_g1125281432215_week1_w3_1517_25_alg».proof.Proof.FrameIdeal
import proofs.«142395_g1125281432215_week1_w3_1517_25_alg».proof.Proof.Layer
import Idealize.ShloMosaic.Adequacy
import Idealize.ShloMosaic.Init

noncomputable section

namespace Cert.Proof

open Idealize.ShloMosaic Idealize.SL.Sem

/-- The word-level program terminates, faults nowhere and leaves its four arguments as they were. -/
theorem frame_k : Cert.frame_Kernel (hKernel := Cert.Kernel.Gen.facts) (hPre_finite_inputs := Cert.Pre_finite_inputs.Gen.facts) :=
  fun m ρ _ => Cert.Kernel.Rows.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Rows.frame (ρ := ρ) (mI := m)

/-- And the plain program: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result at the layer of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
